-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S64x4096 : Shape := ⟨2, ![64, 4096]⟩
abbrev S64 : Shape := ⟨1, ![64]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S8192x4096 .f32) (main_arg1 : FVec F S64x4096 .f32) (main_arg2 : FVec F S64 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S8192x4096 : Shape := ⟨2, ![8192, 4096]⟩
abbrev S64x4096 : Shape := ⟨2, ![64, 4096]⟩
abbrev S64 : Shape := ⟨1, ![64]⟩
abbrev S1x64 : Shape := ⟨2, ![1, 64]⟩
abbrev S8192x64 : Shape := ⟨2, ![8192, 64]⟩
abbrev S512x4096 : Shape := ⟨2, ![512, 4096]⟩
abbrev S512x64 : Shape := ⟨2, ![512, 64]⟩
abbrev S512 : Shape := ⟨1, ![512]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S64x4096, .f32⟩
  | .hbm, ⟨2, _⟩ => ⟨S64, .f32⟩
  | .hbm, ⟨3, _⟩ => ⟨S1x64, .f32⟩
  | .hbm, ⟨4, _⟩ => ⟨S8192x64, .f32⟩
  | .local _ .vmem, ⟨0, _⟩ => ⟨S512x4096, .f32⟩
  | .local _ .vmem, ⟨1, _⟩ => ⟨S512x4096, .f32⟩
  | .local _ .vmem, ⟨2, _⟩ => ⟨S64x4096, .f32⟩
  | .local _ .vmem, ⟨3, _⟩ => ⟨S1x64, .f32⟩
  | .local _ .vmem, ⟨4, _⟩ => ⟨S512x64, .f32⟩
  | .local _ .vmem, ⟨5, _⟩ => ⟨S512x64, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64_S1x64 : S64.ShapeCasts S1x64
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S64x4096_S64x4096_0_0 : ∀ a, (![0, 0] : Fin 2 → Nat) a + S64x4096.size a ≤ S64x4096.size a
  h_S64x4096 : 0 < S64x4096.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  reduces_S512x64_S512 : S512x64.Reduces [1] S512
  shapeCasts_S512_S512x1 : S512.ShapeCasts S512x1
  broadcasts_S512x1_S512x64 : S512x1.Broadcasts S512x64
  inb_S512x64_S512x64_0_0 : ∀ a, (![0, 0] : Fin 2 → Nat) a + S512x64.size a ≤ S512x64.size a
  h_S512x64 : 0 < S512x64.numel
  dot_S512x4096_S64x4096_S512x64_1_1_0_0_n_n_wf : DotDims.WF S512x4096 S64x4096 S512x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S8192x64.size a
  hwx0_3 : ∀ i : grid0.Coords, EltTy.bits .f32 = 32 ∨ (Rect.block (s := S8192x64) S512x64.size (cc0_transform_3 i) (hinb0_3 i)).WholeWords (EltTy.packing .f32)

variable [Facts₀]

def dot_S512x4096_S64x4096_S512x64_1_1_0_0_n_n : DotDims S512x4096 S64x4096 S512x64 where
  lhsContracting := [1]
  rhsContracting := [1]
  lhsNonContracting := [0]
  rhsNonContracting := [0]
  lhsBatch := []
  rhsBatch := []
  wf := dot_S512x4096_S64x4096_S512x64_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S64x4096 : Shape := ⟨2, ![64, 4096]⟩
abbrev S64 : Shape := ⟨1, ![64]⟩
abbrev S4096x64 : Shape := ⟨2, ![4096, 64]⟩
abbrev S8192x64 : Shape := ⟨2, ![8192, 64]⟩
abbrev S1x64 : Shape := ⟨2, ![1, 64]⟩
abbrev S_ : Shape := ⟨0, ![]⟩
abbrev S8192 : Shape := ⟨1, ![8192]⟩
abbrev S8192x1 : Shape := ⟨2, ![8192, 1]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S64x4096, .f32⟩
  | .hbm, ⟨2, _⟩ => ⟨S64, .f32⟩
  | .hbm, ⟨3, _⟩ => ⟨S4096x64, .f32⟩
  | .hbm, ⟨4, _⟩ => ⟨S8192x64, .f32⟩
  | .hbm, ⟨5, _⟩ => ⟨S1x64, .f32⟩
  | .hbm, ⟨6, _⟩ => ⟨S8192x64, .f32⟩
  | .hbm, ⟨7, _⟩ => ⟨S8192x64, .f32⟩
  | .hbm, ⟨8, _⟩ => ⟨S_, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S8192x1, .f32⟩
  | .hbm, ⟨14, _⟩ => ⟨S8192x64, .f32⟩
  | .hbm, ⟨15, _⟩ => ⟨S8192x64, .f32⟩
  | .hbm, ⟨16, _⟩ => ⟨S8192x64, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S8192x64, .f32⟩
  | .hbm, ⟨21, _⟩ => ⟨S8192x64, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  transposes_S64x4096_S4096x64_1_0 : S64x4096.Transposes [1, 0] S4096x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  dot_S8192x4096_S4096x64_S8192x64_1_0_0_1_n_n_wf : DotDims.WF S8192x4096 S4096x64 S8192x64 [1] [0] [0] [1] [] []

variable [Facts₀]

def dot_S8192x4096_S4096x64_S8192x64_1_0_0_1_n_n : DotDims S8192x4096 S4096x64 S8192x64 where
  lhsContracting := [1]
  rhsContracting := [0]
  lhsNonContracting := [0]
  rhsNonContracting := [1]
  lhsBatch := []
  rhsBatch := []
  wf := dot_S8192x4096_S4096x64_S8192x64_1_0_0_1_n_n_wf

class Facts : Prop extends Facts₀ where

variable [Facts]
-- ==== Proof.RouterSpec.lean ====
/-
  The expert router's value, as one function of its three argument arrays, and the one law its
  two spellings differ by.

  A token's LOGIT for an expert is the inner product of the token's activation row with the
  expert's weight row, plus the expert's bias.  The routing PROBABILITIES of a token are its 64
  logits exponentiated and divided by their total.  A numerically careful softmax first
  subtracts a number M from every logit of the row (the row's maximum, in practice); for real
  logits and ANY real M this changes nothing, because exp (l - M) = exp l / exp M and the
  common factor 1 / exp M cancels between numerator and denominator (it is not zero).  On the
  extended reals the cancellation needs every logit and M to be real: that is where the
  finiteness of the inputs is used.
-/
import Idealize.ShloMosaic.PureOps.Ideal
import Idealize.ShloMosaic.Lib.ValueIdx

noncomputable section

namespace Cert.Router

open Idealize.ShloMosaic Idealize.ShloMosaic.ValueIdx

/-- The activations: 8192 tokens by 4096 hidden units. -/
abbrev Act : Shape := ⟨2, ![8192, 4096]⟩
/-- The router's weights: 64 experts by 4096 hidden units. -/
abbrev Wts : Shape := ⟨2, ![64, 4096]⟩
/-- The router's bias: one number per expert. -/
abbrev Bia : Shape := ⟨1, ![64]⟩
/-- The result: 8192 tokens by 64 experts. -/
abbrev Prb : Shape := ⟨2, ![8192, 64]⟩

/-- Token `r`'s logit for expert `e`: `∑ k, x[r,k] · w[e,k] + b[e]`. -/
def logit (x : Act.Idx → EReal) (w : Wts.Idx → EReal) (b : Bia.Idx → EReal) (r : Fin 8192) (e : Fin 64) : EReal :=
  (∑ k : Fin 4096, x (ix2 r k) * w (ix2 e k)) + b (ix1 e)

/-- The routing probabilities: `exp (logit r e) / ∑ e', exp (logit r e')`. -/
def probs (x : Act.Idx → EReal) (w : Wts.Idx → EReal) (b : Bia.Idx → EReal) : Prb.Idx → EReal := fun i =>
  Ideal.div (Ideal.exp (logit x w b (i 0) (i 1))) (∑ e : Fin 64, Ideal.exp (logit x w b (i 0) e))

/-- A finite sum of reals, taken in the extended reals, is the real sum. -/
theorem coe_sum {ι : Type} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- With real activations, weights and biases every logit is a real number. -/
theorem logit_real (x : Act.Idx → EReal) (w : Wts.Idx → EReal) (b : Bia.Idx → EReal)
    (hx : ∀ i, ∃ v : ℝ, x i = v) (hw : ∀ i, ∃ v : ℝ, w i = v) (hb : ∀ i, ∃ v : ℝ, b i = v) (r : Fin 8192) (e : Fin 64) :
    ∃ v : ℝ, logit x w b r e = v := by
  choose fx hfx using hx
  choose fw hfw using hw
  choose fb hfb using hb
  refine ⟨(∑ k : Fin 4096, fx (ix2 r k) * fw (ix2 e k)) + fb (ix1 e), ?_⟩
  unfold logit
  simp only [hfx, hfw, hfb, ← EReal.coe_mul, coe_sum, ← EReal.coe_add]

/-- The maximum of finitely many reals, started from `-∞`, is a real as soon as there is one of them. -/
theorem fold_max_real {ι : Type} [DecidableEq ι] (l : ι → ℝ) (s : Finset ι) (hs : s.Nonempty) :
    ∃ M : ℝ, s.fold max (⊥ : EReal) (fun k => (l k : EReal)) = M := by
  induction s using Finset.induction_on with
  | empty => exact absurd hs Finset.not_nonempty_empty
  | insert a s ha ih =>
    rw [Finset.fold_insert ha]
    rcases s.eq_empty_or_nonempty with rfl | hne
    · exact ⟨l a, by simp⟩
    · obtain ⟨M, hM⟩ := ih hne
      exact ⟨max (l a) M, by rw [hM]; exact (EReal.coe_strictMono.monotone.map_max).symm⟩

/-- THE LAW: subtracting one real `M` from every real logit of a row before exponentiating leaves each
    quotient by the row's total unchanged (the total may be started from `0`, as a host sum is). -/
theorem softmax_shift {n : ℕ} (l : Fin n → ℝ) (M : ℝ) (j : Fin n) :
    Ideal.div (Ideal.exp ((l j : EReal) - (M : EReal))) (0 + ∑ k : Fin n, Ideal.exp ((l k : EReal) - (M : EReal)))
      = Ideal.div (Ideal.exp (l j : EReal)) (∑ k : Fin n, Ideal.exp (l k : EReal)) := by
  have h1 : ∀ k, Ideal.exp ((l k : EReal) - (M : EReal)) = ((Real.exp (l k - M) : ℝ) : EReal) := fun k => by
    rw [← EReal.coe_sub]; rfl
  have h2 : ∀ k, Ideal.exp (l k : EReal) = ((Real.exp (l k) : ℝ) : EReal) := fun k => rfl
  simp only [h1, h2, coe_sum, zero_add]
  have hM : Real.exp M ≠ 0 := (Real.exp_pos M).ne'
  have hS : (∑ k : Fin n, Real.exp (l k)) ≠ 0 :=
    (Finset.sum_pos (fun k _ => Real.exp_pos (l k)) ⟨j, Finset.mem_univ j⟩).ne'
  have e : (∑ k : Fin n, Real.exp (l k - M)) = (∑ k : Fin n, Real.exp (l k)) / Real.exp M := by
    rw [Finset.sum_div]; exact Finset.sum_congr rfl fun k _ => Real.exp_sub _ _
  have hS' : (∑ k : Fin n, Real.exp (l k - M)) ≠ 0 := by rw [e]; exact div_ne_zero hS hM
  rw [Ideal.div_coe hS', Ideal.div_coe hS, ← EReal.coe_mul, ← EReal.coe_mul, e, Real.exp_sub]
  congr 1
  field_simp

end Cert.Router

end
-- ==== Proof.KernelBlock.lean ====
/-
  What the router kernel's body stores, read at one entry of its [512, 64] output block.

  The body multiplies the block's 512 activation rows with the 64 weight rows (contracting the
  4096 hidden units of both: entry (p, q) is the inner product of activation row p with weight
  row q), adds the one bias row to every row, exponentiates, sums each row over its 64 lanes,
  and divides each entry by its row's total.  The narrowing of both factors to bf16 before the
  product is the identity on extended reals.  So entry (p, q) is
  `exp (∑ k, a[p,k]·w[q,k] + b[0,q]) / ∑ e, exp (∑ k, a[p,k]·w[e,k] + b[0,e])`.
-/
import proofs.«100662_g22857815949987_cont_8to1_1636_19_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx Idealize.SL.Sem

/-! ## The product's operand indices: output (p, q) and contraction position k read a[p, k] and w[q, k] -/

theorem lhs_row (i : S512x64.Idx) (c : dot_S512x4096_S64x4096_S512x64_1_1_0_0_n_n.contr.Idx) :
    (dot_S512x4096_S64x4096_S512x64_1_1_0_0_n_n.lhsIdx i c 0).val = (i 0).val := by
  unfold DotDims.lhsIdx
  rw [dif_neg (show ¬(0 : Fin S512x4096.rank) ∈ dot_S512x4096_S64x4096_S512x64_1_1_0_0_n_n.lhsBatch by decide), dif_pos (show (0 : Fin S512x4096.rank) ∈ dot_S512x4096_S64x4096_S512x64_1_1_0_0_n_n.lhsNonContracting by decide)]
  rfl
theorem lhs_col (i : S512x64.Idx) (c : dot_S512x4096_S64x4096_S512x64_1_1_0_0_n_n.contr.Idx) :
    (dot_S512x4096_S64x4096_S512x64_1_1_0_0_n_n.lhsIdx i c 1).val = (c ⟨0, by decide⟩).val :=
  dot_S512x4096_S64x4096_S512x64_1_1_0_0_n_n.lhsIdx_val_of_single rfl i c
theorem rhs_row (i : S512x64.Idx) (c : dot_S512x4096_S64x4096_S512x64_1_1_0_0_n_n.contr.Idx) :
    (dot_S512x4096_S64x4096_S512x64_1_1_0_0_n_n.rhsIdx i c 0).val = (i 1).val := by
  unfold DotDims.rhsIdx
  rw [dif_neg (show ¬(0 : Fin S64x4096.rank) ∈ dot_S512x4096_S64x4096_S512x64_1_1_0_0_n_n.rhsBatch by decide), dif_pos (show (0 : Fin S64x4096.rank) ∈ dot_S512x4096_S64x4096_S512x64_1_1_0_0_n_n.rhsNonContracting by decide)]
  rfl
theorem rhs_col (i : S512x64.Idx) (c : dot_S512x4096_S64x4096_S512x64_1_1_0_0_n_n.contr.Idx) :
    (dot_S512x4096_S64x4096_S512x64_1_1_0_0_n_n.rhsIdx i c 1).val = (c ⟨0, by decide⟩).val :=
  dot_S512x4096_S64x4096_S512x64_1_1_0_0_n_n.rhsIdx_val_of_single rfl i c

/-- The matrix product into a zero accumulator, at (p, q): the inner product of row p of the left factor with
    row q of the right one (both contract their second axis). -/
theorem product_apply (a : FVec Ideal S512x4096 .bf16) (w : FVec Ideal S64x4096 .bf16) (p : Fin 512) (q : Fin 64) :
    matmul dot_S512x4096_S64x4096_S512x64_1_1_0_0_n_n none a w (constant S512x64 .f32 0x00000000#32) (ix2 p q)
      = ∑ k : Fin 4096, a (ix2 p k) * w (ix2 q k) := by
  simp only [matmul]
  rw [Ideal.matmul_constant_zero_apply, ← Equiv.sum_comp (contrEquiv1 dot_S512x4096_S64x4096_S512x64_1_1_0_0_n_n 4096 rfl rfl).symm]
  refine Finset.sum_congr rfl fun k _ => ?_
  have hk := contrEquiv1_symm_val dot_S512x4096_S64x4096_S512x64_1_1_0_0_n_n 4096 rfl rfl k
  have el : dot_S512x4096_S64x4096_S512x64_1_1_0_0_n_n.lhsIdx (ix2 p q) ((contrEquiv1 dot_S512x4096_S64x4096_S512x64_1_1_0_0_n_n 4096 rfl rfl).symm k) = ix2 p k := funext fun ax => Fin.ext (by
    match ax with
    | ⟨0, _⟩ => exact lhs_row _ _
    | ⟨1, _⟩ => exact (lhs_col _ _).trans hk)
  have er : dot_S512x4096_S64x4096_S512x64_1_1_0_0_n_n.rhsIdx (ix2 p q) ((contrEquiv1 dot_S512x4096_S64x4096_S512x64_1_1_0_0_n_n 4096 rfl rfl).symm k) = ix2 q k := funext fun ax => Fin.ext (by
    match ax with
    | ⟨0, _⟩ => exact rhs_row _ _
    | ⟨1, _⟩ => exact (rhs_col _ _).trans hk)
  rw [el, er]

/-- The bias row, cast to its own shape and broadcast down the 512 rows, reads b[0, q] in every row. -/
theorem bias_apply (b : Vec Ideal S1x64 .f32) (p : Fin 512) (q : Fin 64) :
    broadcastTo S512x64 (shapeCast S1x64 b shapeCasts_S1x64_S1x64) broadcasts_S1x64_S512x64 (ix2 p q) = b (ix2 (0 : Fin 1) q) := by
  rw [shapeCast_self]
  exact broadcastTo_1b_ab_apply b broadcasts_S1x64_S512x64 p q

/-- The block's logits at (p, q). -/
theorem logits_apply (a : Vec Ideal S512x4096 .f32) (w : Vec Ideal S64x4096 .f32) (b : Vec Ideal S1x64 .f32) (p : Fin 512) (q : Fin 64) :
    addf (F := Ideal) (matmul (F := Ideal) dot_S512x4096_S64x4096_S512x64_1_1_0_0_n_n none (truncf .bf16 a bitsLt_bf16_f32) (truncf .bf16 w bitsLt_bf16_f32) (constant (F := Ideal) S512x64 .f32 0x00000000#32))
        (broadcastTo S512x64 (shapeCast S1x64 b shapeCasts_S1x64_S1x64) broadcasts_S1x64_S512x64) (ix2 p q)
      = (∑ k : Fin 4096, a (ix2 p k) * w (ix2 q k)) + b (ix2 (0 : Fin 1) q) :=
  (addf_apply _ _ _).trans (congrArg₂ (· + ·) (product_apply (truncf .bf16 a bitsLt_bf16_f32) (truncf .bf16 w bitsLt_bf16_f32) p q) (bias_apply b p q))

/-- A row's total: the lane sum over the 64 columns, kept as a [512, 1] column and broadcast back across the
    row, reads at (p, q) the sum of row p, whatever q. -/
theorem rowTotal_apply (E : FVec Ideal S512x64 .f32) (hφ : FKind.Formats .f32) (hacc : (0x00000000#32 : BitVec 32) = FKind.add.neutral .f32 hφ)
    (p : Fin 512) (q : Fin 64) :
    broadcastTo S512x64 (shapeCast S512x1 (multiReduction .add [1] S512 E 0x00000000#32 reduces_S512x64_S512 hφ hacc) shapeCasts_S512_S512x1)
        broadcasts_S512x1_S512x64 (ix2 p q)
      = ∑ e : Fin 64, E (ix2 p e) := by
  refine (broadcastTo_apply _ broadcasts_S512x1_S512x64 (ix2 p q) (ix2 p (0 : Fin 1)) (fun ax => by
    match ax with
    | ⟨0, _⟩ => show p.val = if (512 : ℕ) = 1 then 0 else p.val; rw [if_neg (by decide)]
    | ⟨1, _⟩ => show 0 = if (1 : ℕ) = 1 then 0 else q.val; rw [if_pos rfl])).trans ?_
  refine (shapeCast_apply _ shapeCasts_S512_S512x1 (ix2 p (0 : Fin 1)) (ix1 p) (by
    rw [Shape.rowMajor_val_two, Shape.rowMajor_val_one]
    show p.val = p.val * 1 + 0
    omega)).trans ?_
  refine (Ideal.multiReduction_add_single E 0x00000000#32 reduces_S512x64_S512 hφ hacc (ix1 p)).trans ?_
  exact Finset.sum_congr rfl fun e _ => congrArg E (funext fun ax => Fin.ext (by
    match ax with
    | ⟨0, _⟩ => rfl
    | ⟨1, _⟩ => rfl))

/-- THE BODY'S STORE at (p, q): the exponential of the entry's logit over the total of the row's exponentials. -/
theorem payload_apply (a : Vec Ideal S512x4096 .f32) (w : Vec Ideal S64x4096 .f32) (b : Vec Ideal S1x64 .f32) (p : Fin 512) (q : Fin 64) :
    k0_pay1 (F := Ideal) a w b (ix2 p q)
      = Ideal.div (Ideal.exp ((∑ k : Fin 4096, a (ix2 p k) * w (ix2 q k)) + b (ix2 (0 : Fin 1) q)))
          (∑ e : Fin 64, Ideal.exp ((∑ k : Fin 4096, a (ix2 p k) * w (ix2 e k)) + b (ix2 (0 : Fin 1) e))) := by
  unfold k0_pay1
  dsimp only
  refine (divf_apply _ _ _).trans (congrArg₂ Ideal.div ?_ ?_)
  · exact congrArg Ideal.exp (logits_apply a w b p q)
  · refine (rowTotal_apply _ _ _ p q).trans ?_
    exact Finset.sum_congr rfl fun e _ => congrArg Ideal.exp (logits_apply a w b p e)

end Cert.KernelIdeal.Block

end
-- ==== Proof.KernelArray.lean ====
/-
  The router kernel's result array, after its run, is the routing probabilities `Router.probs` of
  its three arguments.

  The grid has 16 points; point t works on token rows 512·t … 512·t + 511.  Its activation block
  is those rows of the activations, its weight block is the whole weight array, its bias block
  is the bias reshaped to one row of 64, and it writes rows 512·t … 512·t + 511 of the result.
  Entry (p, q) of what the body stores is therefore `probs` at (512·t + p, q)
  (`Block.payload_apply`), the 16 row blocks tile the 8192 rows, and so the array ends holding
  `probs` everywhere.
-/
import proofs.«100662_g22857815949987_cont_8to1_1636_19_alg».proof.Proof.Gen.KernelIdeal.Value
import proofs.«100662_g22857815949987_cont_8to1_1636_19_alg».proof.Proof.KernelBlock
import proofs.«100662_g22857815949987_cont_8to1_1636_19_alg».proof.Proof.RouterSpec
import Idealize.ShloMosaic.Lib.StableHlo.Run

set_option maxRecDepth 16384

noncomputable section

namespace Cert.KernelIdeal.Whole

open Cert.KernelIdeal Cert.KernelIdeal.Gen Cert.KernelIdeal.Value Idealize.ShloMosaic Idealize.ShloMosaic.TcCoe Idealize.ShloMosaic.ValueIdx Idealize.SL.Sem Cert.Router
open Idealize.ShloMosaic.Pipeline (Dat)

variable (m : (ℓ : Loc nD τ sig) → Buf (Elt Ideal) ℓ) (ρ : Dev nD → PrngReg)

/-- The array the bias window stages is the bias argument reshaped from [64] to [1, 64]. -/
theorem bias_row (c : Dev nD) :
    (V m c main_v0 : S1x64.Idx → EReal) = shapeCast S1x64 (m ((c : Thread nD τ).loc main_arg2)) shapeCasts_S64_S1x64 := by
  dsimp only [Gen.V, Gen.hostOps0]
  after_results
  rfl

theorem origin : (![0, 0] : Fin 2 → Nat) = fun _ => 0 := funext fun a => by fin_cases a <;> rfl

/-- The block indices at point t, decided over the 16 points: the activations' and the result's row block is t,
    every other block index is 0. -/
theorem block_indices : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Row p of point t's activation block is row 512·t + p of the activations. -/
theorem act_block (c : Dev nD) (t : Fin cfg0.N) (p : Fin 512) (k : Fin 4096) (r : Fin 8192) (hr : r.val = t.val * 512 + p.val) :
    iblk m c 0 t (ix2 p k) = m ((c : Thread nD τ).loc main_arg0) (ix2 r k) := by
  obtain ⟨-, -, e00, e01, -⟩ := block_indices t
  show V m c main_arg0 (((cfg0.win 0).blk t).view.emb (ix2 p k)) = _
  rw [V_main_arg0]
  refine congrArg _ (funext fun a => Fin.ext ?_)
  match a with
  | ⟨0, _⟩ => show win0_0.index t (0 : Fin 2) * 512 + 1 * p.val = r.val; omega
  | ⟨1, _⟩ => show win0_0.index t (1 : Fin 2) * 4096 + 1 * k.val = k.val; omega

/-- Every point's weight block is the whole weight array. -/
theorem wts_block (c : Dev nD) (t : Fin cfg0.N) (e : Fin 64) (k : Fin 4096) :
    iblk m c 1 t (ix2 e k) = m ((c : Thread nD τ).loc main_arg1) (ix2 e k) := by
  obtain ⟨-, -, -, -, e10, e11, -⟩ := block_indices t
  show V m c main_arg1 (((cfg0.win 1).blk t).view.emb (ix2 e k)) = _
  rw [V_main_arg1]
  refine congrArg _ (funext fun a => Fin.ext ?_)
  match a with
  | ⟨0, _⟩ => show win0_1.index t (0 : Fin 2) * 64 + 1 * e.val = e.val; omega
  | ⟨1, _⟩ => show win0_1.index t (1 : Fin 2) * 4096 + 1 * k.val = k.val; omega

/-- Every point's bias block is the one row of the reshaped bias: entry (0, e) is b[e]. -/
theorem bias_block (c : Dev nD) (t : Fin cfg0.N) (e : Fin 64) :
    iblk m c 2 t (ix2 (0 : Fin 1) e) = m ((c : Thread nD τ).loc main_arg2) (ix1 e) := by
  obtain ⟨-, -, -, -, -, -, e20, e21⟩ := block_indices t
  show (V m c main_v0 : S1x64.Idx → EReal) (((cfg0.win 2).blk t).view.emb (ix2 (0 : Fin 1) e)) = _
  rw [bias_row]
  have he : ((cfg0.win 2).blk t).view.emb (ix2 (0 : Fin 1) e) = ix2 (0 : Fin 1) e := funext fun a => Fin.ext (by
    match a with
    | ⟨0, _⟩ => show win0_2.index t (0 : Fin 2) * 1 + 1 * 0 = 0; omega
    | ⟨1, _⟩ => show win0_2.index t (1 : Fin 2) * 64 + 1 * e.val = e.val; omega)
  rw [he]
  exact shapeCast_a_1a_apply _ shapeCasts_S64_S1x64 (0 : Fin 1) e

/-- The body's store over blocks that are rows of the whole arrays: when the activation block's row `j 0` is the
    activations' row `i 0`, the weight block is the weights, the bias block's one row is the bias, and the
    columns agree, the stored entry at `j` is `probs` at `i`. -/
theorem entry_of_blocks (A : Vec Ideal S8192x4096 .f32) (W : Vec Ideal S64x4096 .f32) (B : Vec Ideal S64 .f32)
    (a : Vec Ideal S512x4096 .f32) (w : Vec Ideal S64x4096 .f32) (b : Vec Ideal S1x64 .f32) (j : S512x64.Idx) (i : S8192x64.Idx)
    (ha : ∀ k : Fin 4096, a (ix2 (j 0) k) = A (ix2 (i 0) k)) (hw : ∀ (e : Fin 64) (k : Fin 4096), w (ix2 e k) = W (ix2 e k))
    (hb : ∀ e : Fin 64, b (ix2 (0 : Fin 1) e) = B (ix1 e)) (hq : (i 1).val = (j 1).val) :
    k0_pay1 (F := Ideal) a w b j = probs A W B i := by
  obtain ⟨p, q, rfl⟩ : ∃ (p : Fin 512) (q : Fin 64), j = ix2 p q := ⟨j 0, j 1, eq_ix2 j⟩
  obtain ⟨r, s, rfl⟩ : ∃ (r : Fin 8192) (s : Fin 64), i = ix2 r s := ⟨i 0, i 1, eq_ix2 i⟩
  obtain rfl : s = q := Fin.ext hq
  have ha' : ∀ k : Fin 4096, a (ix2 p k) = A (ix2 r k) := ha
  rw [Block.payload_apply]
  unfold probs logit
  simp only [ha', hw, hb]

/-- WHAT POINT t WRITES BACK is block t of `probs` of the arguments. -/
theorem rows_written (c : Dev nD) (t : Fin cfg0.N) :
    (dats m 0 c).flushed 3 t = ((cfg0.win 3).blk t).view.read (Elt Ideal)
      (probs (m ((c : Thread nD τ).loc main_arg0)) (m ((c : Thread nD τ).loc main_arg1)) (m ((c : Thread nD τ).loc main_arg2))) := by
  rw [Value.flushed3]
  unfold out0_3
  rw [View.canon_unit_zero origin]
  simp only [View.ld_unit_zero (S := S512x4096) origin, View.ld_unit_zero (S := S64x4096) origin, View.ld_unit_zero (S := S1x64) origin]
  funext j
  obtain ⟨e30, e31, -⟩ := block_indices t
  show k0_pay1 (F := Ideal) (iblk m c 0 t) (iblk m c 1 t) (iblk m c 2 t) j
    = probs (m ((c : Thread nD τ).loc main_arg0)) (m ((c : Thread nD τ).loc main_arg1)) (m ((c : Thread nD τ).loc main_arg2)) (((cfg0.win 3).blk t).view.emb j)
  refine entry_of_blocks _ _ _ (iblk m c 0 t) (iblk m c 1 t) (iblk m c 2 t) j (((cfg0.win 3).blk t).view.emb j)
    (fun k => ?_) (fun e k => ?_) (fun e => ?_) ?_
  · exact act_block m c t (j 0) k _ (show win0_3.index t (0 : Fin 2) * 512 + 1 * (j 0).val = t.val * 512 + (j 0).val by omega)
  · exact wts_block m c t e k
  · exact bias_block m c t e
  · show win0_3.index t (1 : Fin 2) * 64 + 1 * (j 1).val = (j 1).val
    omega

/-- An index of the result is in point t's block iff each coordinate is in the block's range on its axis. -/
theorem mem_block (t : Fin cfg0.N) (i : S8192x64.Idx) :
    i ∈ ((cfg0.win 3).blk t).view.set ↔ ∀ a : Fin 2, win0_3.index t a * S512x64.size a ≤ (i a).val ∧ (i a).val < win0_3.index t a * S512x64.size a + S512x64.size a := by
  show i ∈ ((View.whole main_v1).slice (win0_3.rect t)).set ↔ _
  rw [View.set_slice_whole, Rect.mem_set_unit]
  exact Iff.rfl

/-- The 16 row blocks tile the result: row r lies in the block of point r / 512. -/
theorem covered (i : S8192x64.Idx) : ∃ t : Fin cfg0.N, (cfg0.win 3).flush t = true ∧ i ∈ ((cfg0.win 3).blk t).view.set := by
  have hi0 : (i 0).val < 8192 := (i 0).isLt
  have hi1 : (i 1).val < 64 := (i 1).isLt
  have hN : cfg0.N = 16 := N_0
  have hlt : (i 0).val / 512 < cfg0.N := by rw [hN]; omega
  obtain ⟨e30, e31, -⟩ := block_indices ⟨(i 0).val / 512, hlt⟩
  refine ⟨⟨(i 0).val / 512, hlt⟩, flush0_3 _, ?_⟩
  rw [mem_block]
  intro a
  match a with
  | ⟨0, _⟩ =>
    show win0_3.index ⟨(i 0).val / 512, hlt⟩ (0 : Fin 2) * 512 ≤ (i 0).val ∧ (i 0).val < win0_3.index ⟨(i 0).val / 512, hlt⟩ (0 : Fin 2) * 512 + 512
    have e : win0_3.index ⟨(i 0).val / 512, hlt⟩ (0 : Fin 2) = (i 0).val / 512 := e30
    omega
  | ⟨1, _⟩ =>
    show win0_3.index ⟨(i 0).val / 512, hlt⟩ (1 : Fin 2) * 64 ≤ (i 1).val ∧ (i 1).val < win0_3.index ⟨(i 0).val / 512, hlt⟩ (1 : Fin 2) * 64 + 64
    omega

/-- THE ARRAY after the run is `probs` of the arguments. -/
theorem result_is_probs (c : Dev nD) : (dats m 0 c).arrAt 3 cfg0.N
    = probs (m ((c : Thread nD τ).loc main_arg0)) (m ((c : Thread nD τ).loc main_arg1)) (m ((c : Thread nD τ).loc main_arg2)) :=
  (dats m 0 c).arrAt_eq_of_cover 3 _ (fun t _ => rows_written m c t) covered

/-- The kernel's run: it ends with the result array at `probs` of the arguments and the arguments unchanged. -/
theorem run_probs : θ_run defs (onTc (τ := τ) (main (F := Ideal))) ⟨m, fun _ => 0, ρ⟩ fun r => ∀ c : Dev nD,
      r.2.mem ((c : Thread nD τ).loc main_v1)
        = probs (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_is_probs m c), (h c).2⟩) (Value.run_blocks m ρ)

end Cert.KernelIdeal.Whole

end
-- ==== Proof.RefRouter.lean ====
/-
  The reference's result, read index by index, is the routing probabilities `Router.probs` of its
  three arguments, as soon as those hold real numbers.

  The reference adds the bias to the matrix product of the activations with the transposed weights
  (the logits), takes each row's maximum M from `-∞`, exponentiates `logit - M`, sums each row from
  `0` and divides.  With real inputs every logit is real, so a row's maximum over its 64 logits is
  real too, and `Router.softmax_shift` removes M.
-/
import proofs.«100662_g22857815949987_cont_8to1_1636_19_alg».proof.Proof.Gen.ReferenceIdeal.Read
import proofs.«100662_g22857815949987_cont_8to1_1636_19_alg».proof.Proof.RouterSpec
import Idealize.ShloMosaic.PureOps.Reduce

noncomputable section

namespace Cert.ReferenceIdeal.RefRouter

open Cert.ReferenceIdeal Cert.ReferenceIdeal.Gen Cert.ReferenceIdeal.Read Idealize.ShloMosaic Idealize.ShloMosaic.ValueIdx Cert.Router

variable (x : FVec Ideal S8192x4096 .f32) (w : FVec Ideal S64x4096 .f32) (b : FVec Ideal S64 .f32)

/-- The sum of the product's row with the broadcast bias, at (r, e), is token r's logit for expert e:
    the transposed weights at (k, e) are the weights at (e, k), and the bias broadcast through [1, 64]
    to [8192, 64] reads b[e] at every row. -/
theorem logits_eq (i : S8192x64.Idx) : val_main_v4 (F := Ideal) x w b i = logit x w b (i 0) (i 1) := by
  rw [val_main_v4_apply, val_main_v1_apply, val_main_v3_apply, val_main_v2_apply]
  simp only [val_main_v0_apply]
  have e1 : ∀ k : Fin 4096, lidx_main_v1 i k = ix2 (i 0) k := fun k => funext fun a => Fin.ext (by
    match a with | ⟨0, _⟩ => rfl | ⟨1, _⟩ => rfl)
  have e2 : ∀ k : Fin 4096, idx_main_v0 (ridx_main_v1 i k) = ix2 (i 1) k := fun k => funext fun a => Fin.ext (by
    match a with | ⟨0, _⟩ => rfl | ⟨1, _⟩ => rfl)
  have e3 : idx_main_v2 (idx_main_v3 i) = ix1 (i 1) := funext fun a => Fin.ext (by
    match a with | ⟨0, _⟩ => rfl)
  simp only [e1, e2, e3]
  rfl

/-- The pattern the reference starts its maximum from is `-∞`. -/
theorem neg_inf : Ideal.ofBits .f32 0xFF800000#32 = (⊥ : EReal) := by simp [Ideal.ofBits, Ideal.ieee]

variable (hx : ∀ i, ∃ v : ℝ, x i = v) (hw : ∀ i, ∃ v : ℝ, w i = v) (hb : ∀ i, ∃ v : ℝ, b i = v)

include hx hw hb in
/-- A row's maximum, as the reference takes it (the fold of `max` from `-∞` over the row's 64 logits,
    then once more against `-∞`), is a real number when the inputs are real. -/
theorem rowmax_real (j : S8192.Idx) : ∃ M : ℝ, val_main_v7 (F := Ideal) x w b j = M := by
  have h : S8192x64.Reduces [1] S8192 := by decide
  choose l hl using fun e => logit_real x w b hx hw hb (j 0) e
  rw [val_main_v7_apply, val_main_v6_apply, val_main_cst_0_apply]
  unfold val_main_v5
  rw [Host.reduce_eq_fold_single FloatOps.maximumf _ _ reducesTo_S8192x64_S8192_d1 h h_S_]
  have hf : (val_main_v4 (F := Ideal) x w b ∘ h.lift j) = fun k : Fin 64 => (l k : EReal) := funext fun k => by
    show val_main_v4 (F := Ideal) x w b (h.lift j k) = _
    rw [logits_eq]
    exact (congrArg₂ (logit x w b) (Fin.ext rfl : (h.lift j k 0 : Fin 8192) = j 0) (Fin.ext rfl : (h.lift j k 1 : Fin 64) = k)).trans (hl k)
  rw [hf]
  obtain ⟨M, hM⟩ := fold_max_real l (Finset.univ : Finset (Fin 64)) ⟨0, Finset.mem_univ _⟩
  refine ⟨M, ?_⟩
  show max (Ideal.ofBits .f32 0xFF800000#32) (Finset.fold max (Ideal.ofBits .f32 0xFF800000#32) (fun k : Fin 64 => (l k : EReal)) Finset.univ) = M
  rw [neg_inf, hM]
  exact max_eq_right bot_le

/-- What the reference exponentiates at (r, e): the logit less the row's maximum. -/
theorem exps_eq (i : S8192x64.Idx) :
    val_main_v11 (F := Ideal) x w b i = Ideal.exp (logit x w b (i 0) (i 1) - val_main_v7 (F := Ideal) x w b (ix1 (i 0))) := by
  have e9 : idx_main_v8 (idx_main_v9 i) = ix1 (i 0) := funext fun a => Fin.ext (by
    match a with | ⟨0, _⟩ => rfl)
  rw [val_main_v11_apply, val_main_v10_apply, val_main_v9_apply, val_main_v8_apply, logits_eq, e9]
  rfl

include hx hw hb in
/-- THE REFERENCE IS `probs`: its quotient of shifted exponentials by their row total is the quotient of
    the unshifted ones. -/
theorem ref_probs : val_main_v15 (F := Ideal) x w b = probs x w b := by
  funext i
  obtain ⟨M, hM⟩ := rowmax_real x w b hx hw hb (ix1 (i 0))
  choose l hl using fun e => logit_real x w b hx hw hb (i 0) e
  rw [val_main_v15_apply, val_main_v14_apply, val_main_v13_apply, val_main_v12_apply, val_main_cst_1_apply]
  simp only [exps_eq]
  have c0 : ∀ k : Fin 64, (idx_main_v12 (idx_main_v13 (idx_main_v14 i)) k) 0 = i 0 := fun k => Fin.ext rfl
  have c1 : ∀ k : Fin 64, (idx_main_v12 (idx_main_v13 (idx_main_v14 i)) k) 1 = k := fun k => Fin.ext rfl
  simp only [c0, c1, hM, hl]
  unfold probs
  simp only [hl]
  have hl1 : logit x w b (i 0) (i 1) = (l (i 1) : EReal) := hl (i 1)
  rw [hl1]
  show Ideal.div (Ideal.exp ((l (i 1) : EReal) - (M : EReal))) (Ideal.ofBits .f32 0x00000000#32 + ∑ k : Fin 64, Ideal.exp ((l k : EReal) - (M : EReal))) = _
  rw [Ideal.ofBits_zero_f32]
  exact softmax_shift l M (i 1)

end Cert.ReferenceIdeal.RefRouter

end
-- ==== Proof.Finite.lean ====
/-
  The precondition, read back: when `finite_inputs` holds of three arrays of extended reals,
  every entry of each is a real number.

  The predicate is the conjunction of three `all (|v| < +∞)`, one per array.  An extended real
  whose absolute value `max v (-v)` is strictly below `+∞` is neither infinity (at `-∞` the
  absolute value is `+∞` too), so it is a real.
-/
import proofs.«100662_g22857815949987_cont_8to1_1636_19_alg».proof.Proof.Gen.Pre_finite_inputs
import Idealize.ShloMosaic.Lib.ReduceAll
import Idealize.ShloMosaic.Lib.ValueIdx
import Idealize.ShloMosaic.PureOps.Ideal

noncomputable section

namespace Cert.Pre_finite_inputs.Finite

open Cert.Pre_finite_inputs Idealize.ShloMosaic

instance : Subsingleton S_.Idx := ⟨fun a b => funext fun d => d.elim0⟩

/-- The pattern the predicate compares against is `+∞`. -/
theorem pos_inf : Ideal.ofBits .f32 0x7F800000#32 = (⊤ : EReal) := by simp [Ideal.ofBits, Ideal.ieee]

/-- An extended real whose absolute value compares strictly below `+∞` is a real number. -/
theorem real_of_abs_lt (v : EReal) (h : Ideal.cmp .olt (max v (-v)) (Ideal.ofBits .f32 0x7F800000#32) = 1#1) :
    ∃ r : ℝ, v = r := by
  rw [pos_inf] at h
  induction v using EReal.rec with
  | bot => simp [Ideal.cmp] at h
  | coe r => exact ⟨r, rfl⟩
  | top => simp [Ideal.cmp] at h

variable [Facts]

/-- `finite_inputs` all ones: every entry of the activations, of the weights and of the bias is real. -/
theorem entries_real (x : FVec Ideal S8192x4096 .f32) (w : FVec Ideal S64x4096 .f32) (b : FVec Ideal S64 .f32)
    (h : fn (F := Ideal) x w b = fun _ => 1#1) :
    (∀ i, ∃ r : ℝ, x i = r) ∧ (∀ i, ∃ r : ℝ, w i = r) ∧ (∀ i, ∃ r : ℝ, b i = r) := by
  have h0 := congrFun h ValueIdx.ix0
  dsimp only [fn] at h0
  obtain ⟨h12, h3⟩ := IntOp.andi_eq_one.1 h0
  obtain ⟨h1, h2⟩ := IntOp.andi_eq_one.1 h12
  exact ⟨fun i => real_of_abs_lt (x i) (Host.reduce_andi_all _ _ _ _ _ h1 i),
    fun i => real_of_abs_lt (w i) (Host.reduce_andi_all _ _ _ _ _ h2 i),
    fun i => real_of_abs_lt (b i) (Host.reduce_andi_all _ _ _ _ _ h3 i)⟩

end Cert.Pre_finite_inputs.Finite

end
-- ==== Proof.lean ====
/-
  The expert router: `softmax (x · Wᵀ + b)` over 8192 tokens and 64 experts.

  The kernel walks 16 blocks of 512 tokens; for each it forms the block's logits on the matrix
  unit, exponentiates them as they are, and divides by each row's total.  The reference
  subtracts each row's maximum before exponentiating.  On the extended reals, with finite
  inputs, the two are one function: every logit is a real number, so is the row's maximum M,
  and `exp (l - M) / ∑ exp (l' - M) = exp l / ∑ exp l'` because the common factor `exp (-M)` is
  not zero (Proof/RouterSpec.lean, `softmax_shift`).

  Proof/RouterSpec.lean states the result as one function `probs` of the three arguments;
  Proof/KernelBlock.lean reads the kernel body's store at an entry of its block and
  Proof/KernelArray.lean carries that from the 16 row blocks to the whole result array;
  Proof/RefRouter.lean reads the reference's result index by index and removes the shift;
  Proof/Finite.lean reads the precondition back as "every entry is real".  The kernel's side
  needs no finiteness: its quotient is `probs` as written.  Nothing was rewritten when the
  kernel was idealized, so there is nothing to preserve.
-/
import proofs.«100662_g22857815949987_cont_8to1_1636_19_alg».proof.Defs
import proofs.«100662_g22857815949987_cont_8to1_1636_19_alg».proof.Proof.Gen.Kernel
import proofs.«100662_g22857815949987_cont_8to1_1636_19_alg».proof.Proof.Gen.Kernel.Skeleton
import proofs.«100662_g22857815949987_cont_8to1_1636_19_alg».proof.Proof.Gen.Kernel.Launch
import proofs.«100662_g22857815949987_cont_8to1_1636_19_alg».proof.Proof.Gen.Kernel.Points
import proofs.«100662_g22857815949987_cont_8to1_1636_19_alg».proof.Proof.Gen.Kernel.Frame
import proofs.«100662_g22857815949987_cont_8to1_1636_19_alg».proof.Proof.Gen.KernelIdeal
import proofs.«100662_g22857815949987_cont_8to1_1636_19_alg».proof.Proof.Gen.KernelIdeal.Skeleton
import proofs.«100662_g22857815949987_cont_8to1_1636_19_alg».proof.Proof.Gen.KernelIdeal.Launch
import proofs.«100662_g22857815949987_cont_8to1_1636_19_alg».proof.Proof.Gen.KernelIdeal.Points
import proofs.«100662_g22857815949987_cont_8to1_1636_19_alg».proof.Proof.Gen.KernelIdeal.Frame
import proofs.«100662_g22857815949987_cont_8to1_1636_19_alg».proof.Proof.Gen.ReferenceIdeal
import proofs.«100662_g22857815949987_cont_8to1_1636_19_alg».proof.Proof.Gen.Pre_finite_inputs
import proofs.«100662_g22857815949987_cont_8to1_1636_19_alg».proof.Proof.Gen.KernelIdeal.Value
import proofs.«100662_g22857815949987_cont_8to1_1636_19_alg».proof.Proof.Gen.ReferenceIdeal.Run
import proofs.«100662_g22857815949987_cont_8to1_1636_19_alg».proof.Proof.Gen.ReferenceIdeal.Read
import proofs.«100662_g22857815949987_cont_8to1_1636_19_alg».proof.Proof.RouterSpec
import proofs.«100662_g22857815949987_cont_8to1_1636_19_alg».proof.Proof.KernelBlock
import proofs.«100662_g22857815949987_cont_8to1_1636_19_alg».proof.Proof.KernelArray
import proofs.«100662_g22857815949987_cont_8to1_1636_19_alg».proof.Proof.RefRouter
import proofs.«100662_g22857815949987_cont_8to1_1636_19_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text: no rewrite to account for. -/
theorem preserves : Cert.preserves_Kernel_KernelIdeal := trivial

/-- From memories that agree on the three arguments, both programs end with the routing probabilities `probs`
    of those arguments: the kernel by its 16 row blocks, the reference by the shift law, which is where the
    arguments' finiteness enters. -/
theorem algebraic : Cert.algebraic_KernelIdeal_ReferenceIdeal := by
  intro m ρ m' ρ' hpre hagree
  refine ⟨_, Cert.KernelIdeal.Whole.run_probs m ρ, ?_⟩
  refine (θ_run Cert.ReferenceIdeal.defs _ _).mono (fun _ h c => ⟨(h c).1.trans ?_, (h c).2⟩)
    (Cert.ReferenceIdeal.Value.run (F := Ideal) m' ρ')
  obtain ⟨hx, hw, hb⟩ := Cert.Pre_finite_inputs.Finite.entries_real _ _ _ (hpre c)
  rw [(hagree c).1, (hagree c).2.1, (hagree c).2.2, Cert.ReferenceIdeal.Read.val_main_v15_eq]
  exact Cert.ReferenceIdeal.RefRouter.ref_probs _ _ _ hx hw hb

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
